-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8192x128 .f32) (main_arg1 : FVec F S8192x8192 .f32) (main_arg2 : FVec F S128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S8192x128 : Shape := ⟨2, ![8192, 128]⟩
abbrev S8192x8192 : Shape := ⟨2, ![8192, 8192]⟩
abbrev S128x128 : Shape := ⟨2, ![128, 128]⟩
abbrev S512x2048 : Shape := ⟨2, ![512, 2048]⟩
abbrev S512x128 : Shape := ⟨2, ![512, 128]⟩
abbrev S2048x128 : Shape := ⟨2, ![2048, 128]⟩

abbrev nBuf : Space → Nat
  | .hbm => 4
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S8192x128, .f32⟩
  | .local _ .vmem, ⟨0, _⟩ => ⟨S8192x128, .f32⟩
  | .local _ .vmem, ⟨1, _⟩ => ⟨S128x128, .f32⟩
  | .local _ .vmem, ⟨2, _⟩ => ⟨S512x2048, .f32⟩
  | .local _ .vmem, ⟨3, _⟩ => ⟨S512x2048, .f32⟩
  | .local _ .vmem, ⟨4, _⟩ => ⟨S512x128, .f32⟩
  | .local _ .vmem, ⟨5, _⟩ => ⟨S512x128, .f32⟩
  | .local _ .vmem, ⟨6, _⟩ => ⟨S8192x128, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 4], ![false, false]⟩

def k0_off1 (i : grid0.Coords) : Fin 2 → Nat :=
  let arg1 : BitVec 32 := BitVec.ofNat 32 (i 1).val
  let c2048_i32 : BitVec 32 := 2048#32
  let v7 : BitVec 32 := Scalar.muli arg1 c2048_i32
  let v8 : Index := Scalar.indexCast v7
  let c0_3 : Index := 0#32
  ![v8.toNat, 0]
def k0_cond2 (i : grid0.Coords) : BitVec 1 :=
  let arg1 : BitVec 32 := BitVec.ofNat 32 (i 1).val
  let c0_i32_4 : BitVec 32 := 0#32
  let v11 : BitVec 1 := Scalar.cmpi .eq arg1 c0_i32_4
  let v12 : BitVec 32 := Scalar.extui v11
  let c0_i32_5 : BitVec 32 := 0#32
  let v13 : BitVec 1 := Scalar.cmpi .ne v12 c0_i32_5
  v13

def k0_cond3 (i : grid0.Coords) : BitVec 1 :=
  let arg1 : BitVec 32 := BitVec.ofNat 32 (i 1).val
  let c0_i32_6 : BitVec 32 := 0#32
  let v14 : BitVec 1 := Scalar.cmpi .sgt arg1 c0_i32_6
  let v15 : BitVec 32 := Scalar.extui v14
  let c0_i32_7 : BitVec 32 := 0#32
  let v16 : BitVec 1 := Scalar.cmpi .ne v15 c0_i32_7
  v16

def k0_cond4 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S8192x128_S8192x128 : S8192x128.ShapeCasts S8192x128
  packedbf16_S8192x128_S8192x128_0_0 : (Rect.unit (s := S8192x128) ![0, 0] S8192x128.size inb_S8192x128_S8192x128_0_0).PackedRows (EltTy.packing .bf16)
  inb_S512x2048_S512x2048_0_0 : ∀ a, (![0, 0] : Fin 2 → Nat) a + S512x2048.size a ≤ S512x2048.size a
  h_S512x2048 : 0 < S512x2048.numel
  h_S2048x128 : 0 < S2048x128.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  dot_S8192x128_S128x128_S8192x128_1_0_0_1_n_n_wf : DotDims.WF S8192x128 S128x128 S8192x128 [1] [0] [0] [1] [] []
  dot_S512x2048_S2048x128_S512x128_1_0_0_1_n_n_wf : DotDims.WF S512x2048 S2048x128 S512x128 [1] [0] [0] [1] [] []
  hrank0 : 0 < grid0.rank
  k0_off1_inb : ∀ i : grid0.Coords, ∀ a, (k0_off1 i) a + S2048x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x8192.size a
  hwx0_2 : ∀ i : grid0.Coords, EltTy.bits .f32 = 32 ∨ (Rect.block (s := S8192x8192) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S8192x128.size a
  hwx0_3 : ∀ i : grid0.Coords, EltTy.bits .f32 = 32 ∨ (Rect.block (s := S8192x128) S512x128.size (cc0_transform_3 i) (hinb0_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) && !(k0_cond3 i == 1#1) && !(k0_cond4 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S8192x128, .f32⟩
  | .hbm, ⟨7, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S8192x128 : S_.BroadcastsInDim S8192x128 (![] : Fin 0 → Fin S8192x128.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.BitsData.lean ====
/-
  What the fused graph-convolution kernel holds, grid step by grid step.

  The grid is 16 × 4: step `(i, j)` handles rows `512 i … 512 i + 511` of the output and columns
  `2048 j … 2048 j + 2047` of the adjacency. The projection `P = feat · weight` (8192 × 128) is computed at
  step `(0, 0)` alone and kept in a scratch buffer for all later steps. Step `(i, j)` multiplies its adjacency tile
  (512 × 2048) with rows `2048 j …` of `P`; the product opens the output block at `j = 0`, is added to it for
  `j = 1, 2, 3`, and at `j = 3` the block is clamped at zero from below before it is written back. So after
  step `4 i + 3` the block is `max (Σ_j tile(i, j) · P[2048 j …], 0)`.

  This module only NAMES those contents (`proj`, `accAt`) and packs them as the pipeline's proof data
  (`dats`); every definition is over any float family `F`.
-/
import proofs.«178523_g34007551050521_cont_8to1_b_1118_9_alg».proof.Proof.Gen.Kernel.Frame
import proofs.«178523_g34007551050521_cont_8to1_b_1118_9_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The four guards of a step -/

/-- Both grid coordinates are zero: the step that computes the projection. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- `j = 0`: the tile product opens the output block. -/
abbrev isStart (i : grid0.Coords) : Prop := k0_cond2 i = 1#1
/-- `j > 0`: the tile product is added to the output block. -/
abbrev isLater (i : grid0.Coords) : Prop := k0_cond3 i = 1#1
/-- `j = 3`: the output block is clamped at zero. -/
abbrev isLast (i : grid0.Coords) : Prop := k0_cond4 i = 1#1

/-! ## One step's values -/

/-- Rows `2048 j … 2048 j + 2047` of a full-height matrix: the rows of the projection that column band `j` of the
    adjacency multiplies. -/
abbrev rowsAt (i : grid0.Coords) (xw : Vec F S8192x128 .bf16) : Vec F S2048x128 .bf16 :=
  View.ld xw (Rect.unit (s := S8192x128) (k0_off1 i) S2048x128.size (Gen.k0_off1_inb i))

/-- The tile product of a step: the adjacency tile times its rows of the projection. -/
abbrev tileProd (i : grid0.Coords) (a : Vec F S512x2048 .f32) (xw : Vec F S8192x128 .bf16) : Vec F S512x128 .f32 :=
  k0_pay2 a (rowsAt i xw)

theorem zero2 : (![0, 0] : Fin 2 → ℕ) = fun _ => 0 := by
  funext a; fin_cases a <;> rfl

/-! ## The input blocks, at their literal shapes -/

/-- `feat`, whole (its window is the whole array at every step). -/
abbrev featBlk (c : Dev nD) (t : Fin cfg0.N) : Vec F S8192x128 .f32 := iblk m c 0 t
/-- `weight`, whole. -/
abbrev wBlk (c : Dev nD) (t : Fin cfg0.N) : Vec F S128x128 .f32 := iblk m c 1 t
/-- The adjacency tile of step `t`. -/
abbrev adjBlk (c : Dev nD) (t : Fin cfg0.N) : Vec F S512x2048 .f32 := iblk m c 2 t

theorem N_pos : 0 < cfg0.N := by rw [show cfg0.N = 64 from N_0]; exact Nat.zero_lt_succ _

/-- The first step. -/
abbrev t₀ : Fin cfg0.N := ⟨0, N_pos⟩

/-- The projection as the first step computes it from the two whole input blocks. -/
def proj (c : Dev nD) : Vec F S8192x128 .bf16 := k0_pay1 (featBlk m c t₀) (wBlk m c t₀)

/-- THE ACCUMULATION: what the output's staging buffer holds after step `n`. At `n ≡ 0 (mod 4)` the tile product;
    at `n ≡ 1, 2` the previous contents plus the tile product; at `n ≡ 3` that sum clamped at zero. -/
def accAt (c : Dev nD) : (n : ℕ) → n < cfg0.N → Vec F S512x128 .f32
  | 0, h => tileProd (grid0.coords ⟨0, h⟩) (adjBlk m c ⟨0, h⟩) (proj m c)
  | n + 1, h =>
    if (n + 1) % 4 = 0 then tileProd (grid0.coords ⟨n + 1, h⟩) (adjBlk m c ⟨n + 1, h⟩) (proj m c)
    else if (n + 1) % 4 = 3 then
      k0_pay4 (k0_pay3 (adjBlk m c ⟨n + 1, h⟩) (rowsAt (grid0.coords ⟨n + 1, h⟩) (proj m c)) (accAt c n (Nat.lt_of_succ_lt h)))
    else k0_pay3 (adjBlk m c ⟨n + 1, h⟩) (rowsAt (grid0.coords ⟨n + 1, h⟩) (proj m c)) (accAt c n (Nat.lt_of_succ_lt h))

/-- At a step that opens a block. -/
theorem accAt_start (c : Dev nD) (t : Fin cfg0.N) (h0 : t.val % 4 = 0) :
    accAt m c t.val t.isLt = tileProd (grid0.coords t) (adjBlk m c t) (proj m c) := by
  obtain ⟨n, hn⟩ := t
  cases n with
  | zero => rfl
  | succ n => exact if_pos h0

/-- At a step that adds to a block without closing it. -/
theorem accAt_mid (c : Dev nD) (t : Fin cfg0.N) (h0 : ¬t.val % 4 = 0) (h3 : ¬t.val % 4 = 3) :
    accAt m c t.val t.isLt = k0_pay3 (adjBlk m c t) (rowsAt (grid0.coords t) (proj m c))
      (accAt m c (t.val - 1) (Nat.lt_of_le_of_lt (Nat.sub_le _ _) t.isLt)) := by
  obtain ⟨n, hn⟩ := t
  cases n with
  | zero => exact absurd (Nat.zero_mod _) h0
  | succ n => exact (if_neg h0).trans (if_neg h3)

/-- At a step that closes a block. -/
theorem accAt_last (c : Dev nD) (t : Fin cfg0.N) (h3 : t.val % 4 = 3) :
    accAt m c t.val t.isLt = k0_pay4 (k0_pay3 (adjBlk m c t) (rowsAt (grid0.coords t) (proj m c))
      (accAt m c (t.val - 1) (Nat.lt_of_le_of_lt (Nat.sub_le _ _) t.isLt))) := by
  obtain ⟨n, hn⟩ := t
  cases n with
  | zero => exact absurd h3 (by dsimp only; omega)
  | succ n => exact (if_neg (by dsimp only at h3; omega)).trans (if_pos h3)

/-! ## The region invariant and the proof data -/

/-- The scratch buffer, as the body is handed it. -/
abbrev scM : Memref sig .tc .vmem S8192x128 .bf16 := Memref.whole cc0_scratch0

/-- Before step `n`: at the first step the scratch holds anything (the class's invariant); at every later step it holds
    the projection. The generator register is at some state throughout. -/
def PhiS (c : Dev nD) : (n : ℕ) → n ≤ cfg0.N → sProp 𝕄
  | 0, _ => Pipeline.ΦA spec0 c
  | _ + 1, _ => iprop(owns (c : Thread nD τ) scM fullShare (proj m c) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(owns (c : Thread nD τ) scM fullShare (proj m c) ∗ (∃ r, prngReg c r)) := by
  cases n with
  | zero => exact absurd rfl hz
  | succ n => rfl

/-- The proof data of the one pipeline on core `c`: the arrays as the region finds them; after the body at step `t`
    each input's buffer at its block and the output's at `accAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = accAt m c t.val t.isLt := by dsimp only [dats]

end Cert.Kernel.Hand

end
-- ==== Proof.BitsRuns.lean ====
/-
  The body of one grid step, run case by case.

  Four control cases arise on the 16 × 4 grid: the very first step (projection and opening of a block), a later
  step with `j = 0` (opening), a step with `j = 1, 2` (adding) and a step with `j = 3` (adding, then clamping).
  In each the body terminates without fault, leaves its three input buffers as they were, and leaves the output
  buffer and the scratch at the contents the proof data name.
-/
import proofs.«178523_g34007551050521_cont_8to1_b_1118_9_alg».proof.Proof.BitsData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer stores and loads of rank two -/

/-- After a store through the whole buffer the buffer reads as the stored value, whatever was stored before. -/
theorem read_store_whole {κ : Kind} {sp : Space} {d : Fin 2 → ℕ} {e : EltTy} (v : View sig κ sp ⟨2, d⟩ e) (f : v.ty.Contents (Elt F))
    (inb : ∀ a, (![0, 0] : Fin 2 → ℕ) a + d a ≤ d a) (w : (⟨2, d⟩ : Shape).Idx → Elt F e)
    (L : List (View.Piece (Elt F) ⟨2, d⟩ e)) :
    v.read (Elt F) (v.writes (Elt F) f (⟨Rect.unit (s := ⟨2, d⟩) ![0, 0] d inb, w⟩ :: L)) = w := by
  have hcov : ∀ y : (⟨2, d⟩ : Shape).Idx, ∃ p ∈ ((⟨Rect.unit (s := ⟨2, d⟩) ![0, 0] d inb, w⟩ : View.Piece (Elt F) ⟨2, d⟩ e) :: L), y ∈ p.1.set :=
    fun y => ⟨(⟨Rect.unit (s := ⟨2, d⟩) ![0, 0] d inb, w⟩ : View.Piece (Elt F) ⟨2, d⟩ e), List.mem_cons_self,
      View.mem_set_unit_zero (S := ⟨2, d⟩) zero2 inb y⟩
  rw [View.read_writes_eq_canon v f _ hcov]
  exact View.canon_cons_unit_zero (S := ⟨2, d⟩) zero2 inb w L

/-- A load through the whole buffer reads its contents. -/
theorem ld_whole {d : Fin 2 → ℕ} {e : EltTy} (X : (⟨2, d⟩ : Shape).Idx → Elt F e) (inb : ∀ a, (![0, 0] : Fin 2 → ℕ) a + d a ≤ d a) :
    View.ld X (Rect.unit (s := ⟨2, d⟩) ![0, 0] d inb) = X :=
  View.ld_unit_zero (S := ⟨2, d⟩) zero2 inb X

/-- A whole-buffer load right after a whole-buffer store reads the stored value. -/
theorem readCov_whole {κ : Kind} {sp : Space} {d : Fin 2 → ℕ} {e : EltTy} (v : View sig κ sp ⟨2, d⟩ e)
    (inb : ∀ a, (![0, 0] : Fin 2 → ℕ) a + d a ≤ d a) (w : (⟨2, d⟩ : Shape).Idx → Elt F e) :
    v.readCov [(⟨Rect.unit (s := ⟨2, d⟩) ![0, 0] d inb, w⟩ : View.Piece (Elt F) ⟨2, d⟩ e)] (Rect.unit (s := ⟨2, d⟩) ![0, 0] d inb).toLoadRect = w :=
  View.readCov_unit_zero (S := ⟨2, d⟩) v zero2 inb w

/-! ## The four cases -/

section Runs

variable (c : Dev nD) (i : grid0.Coords)
    (arg2 : Memref sig .tc .vmem S8192x128 .f32) (harg2 : arg2.IsWhole) (arg3 : Memref sig .tc .vmem S128x128 .f32) (harg3 : arg3.IsWhole)
    (arg4 : Memref sig .tc .vmem S512x2048 .f32) (harg4 : arg4.IsWhole) (arg5 : Memref sig .tc .vmem S512x128 .f32) (harg5 : arg5.IsWhole)
    (arg6 : Memref sig .tc .vmem S8192x128 .bf16) (harg6 : arg6.IsWhole)
    (x0 : Vec F S8192x128 .f32) (x1 : Vec F S128x128 .f32) (x2 : Vec F S512x2048 .f32)

set_option maxHeartbeats 2000000 in
/-- The very first step: the projection goes into the scratch (whatever it held), and the output block (whatever it held) becomes the tile product over that projection. -/
theorem run_first (h1 : isFirst i) (h2 : isStart i) (h3 : ¬isLater i) (h4 : ¬isLast i)
    (acc : Vec F S512x128 .f32) (old : Vec F S8192x128 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare acc ∗ owns (c : Thread nD τ) arg6 fullShare old
        ∗ (iprop(owns (c : Thread nD τ) arg2 fullShare x0 ∗ owns (c : Thread nD τ) arg3 fullShare x1 ∗ owns (c : Thread nD τ) arg4 fullShare x2
            ∗ owns (c : Thread nD τ) arg5 fullShare (tileProd i x2 (k0_pay1 x0 x1)) ∗ owns (c : Thread nD τ) arg6 fullShare (k0_pay1 x0 x1)) -∗ K ⟨⟩))
      ⊢ wp frame (wpE (defs₀ (F := F)) Variants.none c none) E (cc0__gcn_block_kernel i arg2 harg2 arg3 harg3 arg4 harg4 arg5 harg5 arg6 harg6) K := by
  simp only [cc0__gcn_block_kernel_eq_skeleton]; unfold cc0__gcn_block_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    simp only [read_store_whole, readCov_whole, View.readAt_eq_ld, Memref.IsWhole.read_unread, ld_whole]
    all_goals rfl
  · iexists _; isplitr
    swap; · iexact H4
    ipureintro
    sl_unfold_run_names
    simp only [read_store_whole, readCov_whole, View.readAt_eq_ld, Memref.IsWhole.read_unread, ld_whole]
    all_goals rfl

set_option maxHeartbeats 2000000 in
/-- A later step with `j = 0`: the scratch keeps the projection, the output block (whatever it held) becomes the tile product. -/
theorem run_start (h1 : ¬isFirst i) (h2 : isStart i) (h3 : ¬isLater i) (h4 : ¬isLast i)
    (acc : Vec F S512x128 .f32) (xw : Vec F S8192x128 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare acc ∗ owns (c : Thread nD τ) arg6 fullShare xw
        ∗ (iprop(owns (c : Thread nD τ) arg2 fullShare x0 ∗ owns (c : Thread nD τ) arg3 fullShare x1 ∗ owns (c : Thread nD τ) arg4 fullShare x2
            ∗ owns (c : Thread nD τ) arg5 fullShare (tileProd i x2 xw) ∗ owns (c : Thread nD τ) arg6 fullShare (xw)) -∗ K ⟨⟩))
      ⊢ wp frame (wpE (defs₀ (F := F)) Variants.none c none) E (cc0__gcn_block_kernel i arg2 harg2 arg3 harg3 arg4 harg4 arg5 harg5 arg6 harg6) K := by
  simp only [cc0__gcn_block_kernel_eq_skeleton]; unfold cc0__gcn_block_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    simp only [read_store_whole, readCov_whole, View.readAt_eq_ld, Memref.IsWhole.read_unread, ld_whole]
    all_goals rfl
  · iexists _; isplitr
    swap; · iexact H4
    ipureintro
    sl_unfold_run_names
    simp only [read_store_whole, readCov_whole, View.readAt_eq_ld, Memref.IsWhole.read_unread, ld_whole]
    all_goals rfl

set_option maxHeartbeats 2000000 in
/-- A step with `j = 1` or `j = 2`: the tile product is added to the output block. -/
theorem run_mid (h1 : ¬isFirst i) (h2 : ¬isStart i) (h3 : isLater i) (h4 : ¬isLast i)
    (acc : Vec F S512x128 .f32) (xw : Vec F S8192x128 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare acc ∗ owns (c : Thread nD τ) arg6 fullShare xw
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 x2 (rowsAt i xw) acc) ∗ owns (c : Thread nD τ) arg6 fullShare (xw)) -∗ K ⟨⟩))
      ⊢ wp frame (wpE (defs₀ (F := F)) Variants.none c none) E (cc0__gcn_block_kernel i arg2 harg2 arg3 harg3 arg4 harg4 arg5 harg5 arg6 harg6) K := by
  simp only [cc0__gcn_block_kernel_eq_skeleton]; unfold cc0__gcn_block_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    simp only [read_store_whole, readCov_whole, View.readAt_eq_ld, Memref.IsWhole.read_unread, ld_whole]
    all_goals rfl
  · iexists _; isplitr
    swap; · iexact H4
    ipureintro
    sl_unfold_run_names
    simp only [read_store_whole, readCov_whole, View.readAt_eq_ld, Memref.IsWhole.read_unread, ld_whole]
    all_goals rfl

set_option maxHeartbeats 2000000 in
/-- A step with `j = 3`: the tile product is added to the output block and the sum is clamped at zero. -/
theorem run_last (h1 : ¬isFirst i) (h2 : ¬isStart i) (h3 : isLater i) (h4 : isLast i)
    (acc : Vec F S512x128 .f32) (xw : Vec F S8192x128 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare acc ∗ owns (c : Thread nD τ) arg6 fullShare xw
        ∗ (iprop(owns (c : Thread nD τ) arg2 fullShare x0 ∗ owns (c : Thread nD τ) arg3 fullShare x1 ∗ owns (c : Thread nD τ) arg4 fullShare x2
            ∗ owns (c : Thread nD τ) arg5 fullShare (k0_pay4 (k0_pay3 x2 (rowsAt i xw) acc)) ∗ owns (c : Thread nD τ) arg6 fullShare (xw)) -∗ K ⟨⟩))
      ⊢ wp frame (wpE (defs₀ (F := F)) Variants.none c none) E (cc0__gcn_block_kernel i arg2 harg2 arg3 harg3 arg4 harg4 arg5 harg5 arg6 harg6) K := by
  simp only [cc0__gcn_block_kernel_eq_skeleton]; unfold cc0__gcn_block_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    simp only [read_store_whole, readCov_whole, View.readAt_eq_ld, Memref.IsWhole.read_unread, ld_whole]
    all_goals rfl
  · iexists _; isplitr
    swap; · iexact H4
    ipureintro
    sl_unfold_run_names
    simp only [read_store_whole, readCov_whole, View.readAt_eq_ld, Memref.IsWhole.read_unread, ld_whole]
    all_goals rfl

end Runs

end Cert.Kernel.Hand

end
-- ==== Proof.BitsBody.lean ====
/-
  The body obligation of the fused graph-convolution kernel, its frame run, and the frame.

  At every grid step the pipeline hands the body its three input buffers at their blocks, the output buffer at what
  the previous step left there (or at anything, at a step that opens a block), and the scratch at the projection
  (or at anything, at the very first step); the step's control case runs, and the buffers are handed back at the
  contents the proof data name. Launching that at every step gives the run to the frame post: every argument array
  unchanged, the result array at what the write-backs of the closing steps leave.
-/
import proofs.«178523_g34007551050521_cont_8to1_b_1118_9_alg».proof.Proof.BitsRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The guards over the grid, in closed form -/

theorem first_iff : ∀ t : Fin cfg0.N, isFirst (grid0.coords t) ↔ t.val = 0 :=
  (by decide +kernel : ∀ t : Fin grid0.N, isFirst (grid0.coords t) ↔ t.val = 0)
theorem start_iff : ∀ t : Fin cfg0.N, isStart (grid0.coords t) ↔ t.val % 4 = 0 :=
  (by decide +kernel : ∀ t : Fin grid0.N, isStart (grid0.coords t) ↔ t.val % 4 = 0)
theorem later_iff : ∀ t : Fin cfg0.N, isLater (grid0.coords t) ↔ ¬t.val % 4 = 0 :=
  (by decide +kernel : ∀ t : Fin grid0.N, isLater (grid0.coords t) ↔ ¬t.val % 4 = 0)
theorem last_iff : ∀ t : Fin cfg0.N, isLast (grid0.coords t) ↔ t.val % 4 = 3 :=
  (by decide +kernel : ∀ t : Fin grid0.N, isLast (grid0.coords t) ↔ t.val % 4 = 3)

/-- Every step stores into the output buffer (it opens the block or adds to it): the window is never idle. -/
theorem out_live (i : grid0.Coords) : cfg0.idle 3 i = false := by
  have key : ∀ j : Fin 4,
      (!(Scalar.cmpi .ne (Scalar.extui (Scalar.cmpi .eq (BitVec.ofNat 32 j.val) 0#32)) 0#32 == 1#1)
        && !(Scalar.cmpi .ne (Scalar.extui (Scalar.cmpi .sgt (BitVec.ofNat 32 j.val) 0#32)) 0#32 == 1#1)
        && !(Scalar.cmpi .ne (Scalar.extui (Scalar.cmpi .eq (BitVec.ofNat 32 j.val) 3#32)) 0#32 == 1#1)) = false := by decide
  exact key (i 1)

/-! ## What the body finds in each buffer -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At a step that adds to a block the output buffer holds what the step before left: the step is not the first, the
    buffer was not written back in between (that happens after `j = 3` only), and every step stores into it. -/
theorem before3_later (c : Dev nD) (t : Fin cfg0.N) (h0 : ¬t.val % 4 = 0) (d) :
    (dats m 0 c).before 3 t d = accAt m c (t.val - 1) (Nat.lt_of_le_of_lt (Nat.sub_le _ _) t.isLt) := by
  rw [Dat.before_out_kept _ 3 rfl t (fun h => h0 (by rw [h]))
    (Bool.eq_false_iff.mpr fun h => by have := (flush0_3 _).mp h; dsimp only at this; omega)
    out_live (fun _ _ => rfl)]
  dsimp only [dats]

/-! ## The buffers as the pipeline passes them -/

abbrev ms0 (t : Fin cfg0.N) : Memref sig .tc .vmem S8192x128 .f32 := win0_0.stage (cfg0.slots t 0)
abbrev hs0 (t : Fin cfg0.N) : (ms0 t).IsWhole := Gen.hstage0_0 ((cfg0.slots t 0).cast Gen.nbuf0_0)
abbrev ms1 (t : Fin cfg0.N) : Memref sig .tc .vmem S128x128 .f32 := win0_1.stage (cfg0.slots t 1)
abbrev hs1 (t : Fin cfg0.N) : (ms1 t).IsWhole := Gen.hstage0_1 ((cfg0.slots t 1).cast Gen.nbuf0_1)
abbrev ms2 (t : Fin cfg0.N) : Memref sig .tc .vmem S512x2048 .f32 := win0_2.stage (cfg0.slots t 2)
abbrev hs2 (t : Fin cfg0.N) : (ms2 t).IsWhole := Gen.hstage0_2 ((cfg0.slots t 2).cast Gen.nbuf0_2)
abbrev ms3 (t : Fin cfg0.N) : Memref sig .tc .vmem S512x128 .f32 := win0_3.stage (cfg0.slots t 3)
abbrev hs3 (t : Fin cfg0.N) : (ms3 t).IsWhole := Gen.hstage0_3 ((cfg0.slots t 3).cast Gen.nbuf0_3)

/-- The class's invariant with the scratch as a memref owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

theorem Phi_castSucc (c : Dev nD) (t : Fin cfg0.N) :
    (dats m 0 c).Φ t.castSucc = PhiS m c t.val (Nat.le_of_lt t.isLt) := by
  dsimp only [dats]; simp only [Fin.coe_castSucc]

/-- A window that is never idle is handed back at the proof data's contents. -/
theorem leaves_live (c : Dev nD) (w : Fin cfg0.W) (t : Fin cfg0.N) (hl : cfg0.idle w (grid0.coords t) = false) :
    (dats m 0 c).leavesExact w t = owns (c : Thread nD τ) ((cfg0.win w).stage (cfg0.slots t w)) fullShare ((dats m 0 c).after w t) := by
  unfold Dat.leavesExact; rw [hl]

/-! ## The body obligation, at a generic step -/

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any step: the closed forms of the guards say which case the step is in, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [leaves_live m c 0 t rfl, leaves_live m c 1 t rfl, leaves_live m c 2 t rfl, leaves_live m c 3 t (out_live _)]
  rw [after0, after1, after2, after3, Phi_castSucc]
  have hN : t.val < 64 := lt_of_lt_of_eq t.isLt (show cfg0.N = 64 from N_0)
  by_cases h0 : t.val % 4 = 0
  · have c2 : isStart (grid0.coords t) := (start_iff t).mpr h0
    have c3 : ¬isLater (grid0.coords t) := fun h => (later_iff t).mp h h0
    have c4 : ¬isLast (grid0.coords t) := fun h => by have := (last_iff t).mp h; omega
    rw [accAt_start m c t h0]
    by_cases hz : t.val = 0
    · have c1 : isFirst (grid0.coords t) := (first_iff t).mpr hz
      obtain rfl : t = t₀ := Fin.ext hz
      rw [PhiS_zero m c _ _ rfl, PhiA_eq]
      unfold proj
      iintro ⟨⟨⟨%old, HS⟩, Hg⟩, Ho, ⟨%d0, H0⟩, ⟨%d1, H1⟩, ⟨%d2, H2⟩, ⟨%d3, H3⟩⟩
      iapply (run_first c (grid0.coords t₀) (ms0 t₀) (hs0 t₀) (ms1 t₀) (hs1 t₀) (ms2 t₀) (hs2 t₀) (ms3 t₀) (hs3 t₀) scM (Memref.isWhole_whole _)
        (featBlk m c t₀) (wBlk m c t₀) (adjBlk m c t₀) c1 c2 c3 c4 ((dats m 0 c).before 3 t₀ d3) old Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · have c1 : ¬isFirst (grid0.coords t) := fun h => hz ((first_iff t).mp h)
      rw [PhiS_pos m c _ _ hz]
      iintro ⟨⟨HS, Hg⟩, Ho, ⟨%d0, H0⟩, ⟨%d1, H1⟩, ⟨%d2, H2⟩, ⟨%d3, H3⟩⟩
      iapply (run_start c (grid0.coords t) (ms0 t) (hs0 t) (ms1 t) (hs1 t) (ms2 t) (hs2 t) (ms3 t) (hs3 t) scM (Memref.isWhole_whole _)
        (featBlk m c t) (wBlk m c t) (adjBlk m c t) c1 c2 c3 c4 ((dats m 0 c).before 3 t d3) (proj m c) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
  · have hz : t.val ≠ 0 := fun h => h0 (by rw [h])
    have c1 : ¬isFirst (grid0.coords t) := fun h => hz ((first_iff t).mp h)
    have c2 : ¬isStart (grid0.coords t) := fun h => h0 ((start_iff t).mp h)
    have c3 : isLater (grid0.coords t) := (later_iff t).mpr h0
    simp only [before3_later m c t h0]
    rw [PhiS_pos m c _ _ hz]
    by_cases h3 : t.val % 4 = 3
    · have c4 : isLast (grid0.coords t) := (last_iff t).mpr h3
      rw [accAt_last m c t h3]
      iintro ⟨⟨HS, Hg⟩, Ho, ⟨%d0, H0⟩, ⟨%d1, H1⟩, ⟨%d2, H2⟩, ⟨%d3, H3⟩⟩
      iapply (run_last c (grid0.coords t) (ms0 t) (hs0 t) (ms1 t) (hs1 t) (ms2 t) (hs2 t) (ms3 t) (hs3 t) scM (Memref.isWhole_whole _)
        (featBlk m c t) (wBlk m c t) (adjBlk m c t) c1 c2 c3 c4 (accAt m c (t.val - 1) (Nat.lt_of_le_of_lt (Nat.sub_le _ _) t.isLt)) (proj m c) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · have c4 : ¬isLast (grid0.coords t) := fun h => h3 ((last_iff t).mp h)
      rw [accAt_mid m c t h0 h3]
      iintro ⟨⟨HS, Hg⟩, Ho, ⟨%d0, H0⟩, ⟨%d1, H1⟩, ⟨%d2, H2⟩, ⟨%d3, H3⟩⟩
      iapply (run_mid c (grid0.coords t) (ms0 t) (hs0 t) (ms1 t) (hs1 t) (ms2 t) (hs2 t) (ms3 t) (hs3 t) scM (Memref.isWhole_whole _)
        (featBlk m c t) (wBlk m c t) (adjBlk m c t) c1 c2 c3 c4 (accAt m c (t.val - 1) (Nat.lt_of_le_of_lt (Nat.sub_le _ _) t.isLt)) (proj m c) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3

/-- The library's body obligation, at every step. -/
theorem body_obligation (c : Dev nD) : BodyObligation (dats (F := F) m 0 c) (defs₀ (F := F)) Variants.none () Set.univ := fun t => by
  rw [bigSep_W0, bigSep_W0]
  exact sound_body m c t

/-- What the launch hands the region is the invariant before the first step. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last step the invariant gives the class's back: the projection in the scratch is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

/-! ## The run and the frame -/

set_option backward.isDefEq.respectTransparency.types false in
/-- From any memory with zero counters every weakly fair execution of @main terminates, and in every final state each
    array of the pipeline holds what the library computes from the proof data: an argument its entry contents, the
    result those overwritten by the closing steps' blocks. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end without fault and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.IdealData.lean ====
/-
  What the fused graph-convolution kernel holds, grid step by grid step.

  The grid is 16 × 4: step `(i, j)` handles rows `512 i … 512 i + 511` of the output and columns
  `2048 j … 2048 j + 2047` of the adjacency. The projection `P = feat · weight` (8192 × 128) is computed at
  step `(0, 0)` alone and kept in a scratch buffer for all later steps. Step `(i, j)` multiplies its adjacency tile
  (512 × 2048) with rows `2048 j …` of `P`; the product opens the output block at `j = 0`, is added to it for
  `j = 1, 2, 3`, and at `j = 3` the block is clamped at zero from below before it is written back. So after
  step `4 i + 3` the block is `max (Σ_j tile(i, j) · P[2048 j …], 0)`.

  This module only NAMES those contents (`proj`, `accAt`) and packs them as the pipeline's proof data
  (`dats`); every definition is over any float family `F`.
-/
import proofs.«178523_g34007551050521_cont_8to1_b_1118_9_alg».proof.Proof.Gen.KernelIdeal.Frame
import proofs.«178523_g34007551050521_cont_8to1_b_1118_9_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The four guards of a step -/

/-- Both grid coordinates are zero: the step that computes the projection. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- `j = 0`: the tile product opens the output block. -/
abbrev isStart (i : grid0.Coords) : Prop := k0_cond2 i = 1#1
/-- `j > 0`: the tile product is added to the output block. -/
abbrev isLater (i : grid0.Coords) : Prop := k0_cond3 i = 1#1
/-- `j = 3`: the output block is clamped at zero. -/
abbrev isLast (i : grid0.Coords) : Prop := k0_cond4 i = 1#1

/-! ## One step's values -/

/-- Rows `2048 j … 2048 j + 2047` of a full-height matrix: the rows of the projection that column band `j` of the
    adjacency multiplies. -/
abbrev rowsAt (i : grid0.Coords) (xw : Vec F S8192x128 .bf16) : Vec F S2048x128 .bf16 :=
  View.ld xw (Rect.unit (s := S8192x128) (k0_off1 i) S2048x128.size (Gen.k0_off1_inb i))

/-- The tile product of a step: the adjacency tile times its rows of the projection. -/
abbrev tileProd (i : grid0.Coords) (a : Vec F S512x2048 .f32) (xw : Vec F S8192x128 .bf16) : Vec F S512x128 .f32 :=
  k0_pay2 a (rowsAt i xw)

theorem zero2 : (![0, 0] : Fin 2 → ℕ) = fun _ => 0 := by
  funext a; fin_cases a <;> rfl

/-! ## The input blocks, at their literal shapes -/

/-- `feat`, whole (its window is the whole array at every step). -/
abbrev featBlk (c : Dev nD) (t : Fin cfg0.N) : Vec F S8192x128 .f32 := iblk m c 0 t
/-- `weight`, whole. -/
abbrev wBlk (c : Dev nD) (t : Fin cfg0.N) : Vec F S128x128 .f32 := iblk m c 1 t
/-- The adjacency tile of step `t`. -/
abbrev adjBlk (c : Dev nD) (t : Fin cfg0.N) : Vec F S512x2048 .f32 := iblk m c 2 t

theorem N_pos : 0 < cfg0.N := by rw [show cfg0.N = 64 from N_0]; exact Nat.zero_lt_succ _

/-- The first step. -/
abbrev t₀ : Fin cfg0.N := ⟨0, N_pos⟩

/-- The projection as the first step computes it from the two whole input blocks. -/
def proj (c : Dev nD) : Vec F S8192x128 .bf16 := k0_pay1 (featBlk m c t₀) (wBlk m c t₀)

/-- THE ACCUMULATION: what the output's staging buffer holds after step `n`. At `n ≡ 0 (mod 4)` the tile product;
    at `n ≡ 1, 2` the previous contents plus the tile product; at `n ≡ 3` that sum clamped at zero. -/
def accAt (c : Dev nD) : (n : ℕ) → n < cfg0.N → Vec F S512x128 .f32
  | 0, h => tileProd (grid0.coords ⟨0, h⟩) (adjBlk m c ⟨0, h⟩) (proj m c)
  | n + 1, h =>
    if (n + 1) % 4 = 0 then tileProd (grid0.coords ⟨n + 1, h⟩) (adjBlk m c ⟨n + 1, h⟩) (proj m c)
    else if (n + 1) % 4 = 3 then
      k0_pay4 (k0_pay3 (adjBlk m c ⟨n + 1, h⟩) (rowsAt (grid0.coords ⟨n + 1, h⟩) (proj m c)) (accAt c n (Nat.lt_of_succ_lt h)))
    else k0_pay3 (adjBlk m c ⟨n + 1, h⟩) (rowsAt (grid0.coords ⟨n + 1, h⟩) (proj m c)) (accAt c n (Nat.lt_of_succ_lt h))

/-- At a step that opens a block. -/
theorem accAt_start (c : Dev nD) (t : Fin cfg0.N) (h0 : t.val % 4 = 0) :
    accAt m c t.val t.isLt = tileProd (grid0.coords t) (adjBlk m c t) (proj m c) := by
  obtain ⟨n, hn⟩ := t
  cases n with
  | zero => rfl
  | succ n => exact if_pos h0

/-- At a step that adds to a block without closing it. -/
theorem accAt_mid (c : Dev nD) (t : Fin cfg0.N) (h0 : ¬t.val % 4 = 0) (h3 : ¬t.val % 4 = 3) :
    accAt m c t.val t.isLt = k0_pay3 (adjBlk m c t) (rowsAt (grid0.coords t) (proj m c))
      (accAt m c (t.val - 1) (Nat.lt_of_le_of_lt (Nat.sub_le _ _) t.isLt)) := by
  obtain ⟨n, hn⟩ := t
  cases n with
  | zero => exact absurd (Nat.zero_mod _) h0
  | succ n => exact (if_neg h0).trans (if_neg h3)

/-- At a step that closes a block. -/
theorem accAt_last (c : Dev nD) (t : Fin cfg0.N) (h3 : t.val % 4 = 3) :
    accAt m c t.val t.isLt = k0_pay4 (k0_pay3 (adjBlk m c t) (rowsAt (grid0.coords t) (proj m c))
      (accAt m c (t.val - 1) (Nat.lt_of_le_of_lt (Nat.sub_le _ _) t.isLt))) := by
  obtain ⟨n, hn⟩ := t
  cases n with
  | zero => exact absurd h3 (by dsimp only; omega)
  | succ n => exact (if_neg (by dsimp only at h3; omega)).trans (if_pos h3)

/-! ## The region invariant and the proof data -/

/-- The scratch buffer, as the body is handed it. -/
abbrev scM : Memref sig .tc .vmem S8192x128 .bf16 := Memref.whole cc0_scratch0

/-- Before step `n`: at the first step the scratch holds anything (the class's invariant); at every later step it holds
    the projection. The generator register is at some state throughout. -/
def PhiS (c : Dev nD) : (n : ℕ) → n ≤ cfg0.N → sProp 𝕄
  | 0, _ => Pipeline.ΦA spec0 c
  | _ + 1, _ => iprop(owns (c : Thread nD τ) scM fullShare (proj m c) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(owns (c : Thread nD τ) scM fullShare (proj m c) ∗ (∃ r, prngReg c r)) := by
  cases n with
  | zero => exact absurd rfl hz
  | succ n => rfl

/-- The proof data of the one pipeline on core `c`: the arrays as the region finds them; after the body at step `t`
    each input's buffer at its block and the output's at `accAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = accAt m c t.val t.isLt := by dsimp only [dats]

end Cert.KernelIdeal.Hand

end
-- ==== Proof.IdealRuns.lean ====
/-
  The body of one grid step, run case by case.

  Four control cases arise on the 16 × 4 grid: the very first step (projection and opening of a block), a later
  step with `j = 0` (opening), a step with `j = 1, 2` (adding) and a step with `j = 3` (adding, then clamping).
  In each the body terminates without fault, leaves its three input buffers as they were, and leaves the output
  buffer and the scratch at the contents the proof data name.
-/
import proofs.«178523_g34007551050521_cont_8to1_b_1118_9_alg».proof.Proof.IdealData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer stores and loads of rank two -/

/-- After a store through the whole buffer the buffer reads as the stored value, whatever was stored before. -/
theorem read_store_whole {κ : Kind} {sp : Space} {d : Fin 2 → ℕ} {e : EltTy} (v : View sig κ sp ⟨2, d⟩ e) (f : v.ty.Contents (Elt F))
    (inb : ∀ a, (![0, 0] : Fin 2 → ℕ) a + d a ≤ d a) (w : (⟨2, d⟩ : Shape).Idx → Elt F e)
    (L : List (View.Piece (Elt F) ⟨2, d⟩ e)) :
    v.read (Elt F) (v.writes (Elt F) f (⟨Rect.unit (s := ⟨2, d⟩) ![0, 0] d inb, w⟩ :: L)) = w := by
  have hcov : ∀ y : (⟨2, d⟩ : Shape).Idx, ∃ p ∈ ((⟨Rect.unit (s := ⟨2, d⟩) ![0, 0] d inb, w⟩ : View.Piece (Elt F) ⟨2, d⟩ e) :: L), y ∈ p.1.set :=
    fun y => ⟨(⟨Rect.unit (s := ⟨2, d⟩) ![0, 0] d inb, w⟩ : View.Piece (Elt F) ⟨2, d⟩ e), List.mem_cons_self,
      View.mem_set_unit_zero (S := ⟨2, d⟩) zero2 inb y⟩
  rw [View.read_writes_eq_canon v f _ hcov]
  exact View.canon_cons_unit_zero (S := ⟨2, d⟩) zero2 inb w L

/-- A load through the whole buffer reads its contents. -/
theorem ld_whole {d : Fin 2 → ℕ} {e : EltTy} (X : (⟨2, d⟩ : Shape).Idx → Elt F e) (inb : ∀ a, (![0, 0] : Fin 2 → ℕ) a + d a ≤ d a) :
    View.ld X (Rect.unit (s := ⟨2, d⟩) ![0, 0] d inb) = X :=
  View.ld_unit_zero (S := ⟨2, d⟩) zero2 inb X

/-- A whole-buffer load right after a whole-buffer store reads the stored value. -/
theorem readCov_whole {κ : Kind} {sp : Space} {d : Fin 2 → ℕ} {e : EltTy} (v : View sig κ sp ⟨2, d⟩ e)
    (inb : ∀ a, (![0, 0] : Fin 2 → ℕ) a + d a ≤ d a) (w : (⟨2, d⟩ : Shape).Idx → Elt F e) :
    v.readCov [(⟨Rect.unit (s := ⟨2, d⟩) ![0, 0] d inb, w⟩ : View.Piece (Elt F) ⟨2, d⟩ e)] (Rect.unit (s := ⟨2, d⟩) ![0, 0] d inb).toLoadRect = w :=
  View.readCov_unit_zero (S := ⟨2, d⟩) v zero2 inb w

/-! ## The four cases -/

section Runs

variable (c : Dev nD) (i : grid0.Coords)
    (arg2 : Memref sig .tc .vmem S8192x128 .f32) (harg2 : arg2.IsWhole) (arg3 : Memref sig .tc .vmem S128x128 .f32) (harg3 : arg3.IsWhole)
    (arg4 : Memref sig .tc .vmem S512x2048 .f32) (harg4 : arg4.IsWhole) (arg5 : Memref sig .tc .vmem S512x128 .f32) (harg5 : arg5.IsWhole)
    (arg6 : Memref sig .tc .vmem S8192x128 .bf16) (harg6 : arg6.IsWhole)
    (x0 : Vec F S8192x128 .f32) (x1 : Vec F S128x128 .f32) (x2 : Vec F S512x2048 .f32)

set_option maxHeartbeats 2000000 in
/-- The very first step: the projection goes into the scratch (whatever it held), and the output block (whatever it held) becomes the tile product over that projection. -/
theorem run_first (h1 : isFirst i) (h2 : isStart i) (h3 : ¬isLater i) (h4 : ¬isLast i)
    (acc : Vec F S512x128 .f32) (old : Vec F S8192x128 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare acc ∗ owns (c : Thread nD τ) arg6 fullShare old
        ∗ (iprop(owns (c : Thread nD τ) arg2 fullShare x0 ∗ owns (c : Thread nD τ) arg3 fullShare x1 ∗ owns (c : Thread nD τ) arg4 fullShare x2
            ∗ owns (c : Thread nD τ) arg5 fullShare (tileProd i x2 (k0_pay1 x0 x1)) ∗ owns (c : Thread nD τ) arg6 fullShare (k0_pay1 x0 x1)) -∗ K ⟨⟩))
      ⊢ wp frame (wpE (defs₀ (F := F)) Variants.none c none) E (cc0__gcn_block_kernel i arg2 harg2 arg3 harg3 arg4 harg4 arg5 harg5 arg6 harg6) K := by
  simp only [cc0__gcn_block_kernel_eq_skeleton]; unfold cc0__gcn_block_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    simp only [read_store_whole, readCov_whole, View.readAt_eq_ld, Memref.IsWhole.read_unread, ld_whole]
    all_goals rfl
  · iexists _; isplitr
    swap; · iexact H4
    ipureintro
    sl_unfold_run_names
    simp only [read_store_whole, readCov_whole, View.readAt_eq_ld, Memref.IsWhole.read_unread, ld_whole]
    all_goals rfl

set_option maxHeartbeats 2000000 in
/-- A later step with `j = 0`: the scratch keeps the projection, the output block (whatever it held) becomes the tile product. -/
theorem run_start (h1 : ¬isFirst i) (h2 : isStart i) (h3 : ¬isLater i) (h4 : ¬isLast i)
    (acc : Vec F S512x128 .f32) (xw : Vec F S8192x128 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare acc ∗ owns (c : Thread nD τ) arg6 fullShare xw
        ∗ (iprop(owns (c : Thread nD τ) arg2 fullShare x0 ∗ owns (c : Thread nD τ) arg3 fullShare x1 ∗ owns (c : Thread nD τ) arg4 fullShare x2
            ∗ owns (c : Thread nD τ) arg5 fullShare (tileProd i x2 xw) ∗ owns (c : Thread nD τ) arg6 fullShare (xw)) -∗ K ⟨⟩))
      ⊢ wp frame (wpE (defs₀ (F := F)) Variants.none c none) E (cc0__gcn_block_kernel i arg2 harg2 arg3 harg3 arg4 harg4 arg5 harg5 arg6 harg6) K := by
  simp only [cc0__gcn_block_kernel_eq_skeleton]; unfold cc0__gcn_block_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    simp only [read_store_whole, readCov_whole, View.readAt_eq_ld, Memref.IsWhole.read_unread, ld_whole]
    all_goals rfl
  · iexists _; isplitr
    swap; · iexact H4
    ipureintro
    sl_unfold_run_names
    simp only [read_store_whole, readCov_whole, View.readAt_eq_ld, Memref.IsWhole.read_unread, ld_whole]
    all_goals rfl

set_option maxHeartbeats 2000000 in
/-- A step with `j = 1` or `j = 2`: the tile product is added to the output block. -/
theorem run_mid (h1 : ¬isFirst i) (h2 : ¬isStart i) (h3 : isLater i) (h4 : ¬isLast i)
    (acc : Vec F S512x128 .f32) (xw : Vec F S8192x128 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare acc ∗ owns (c : Thread nD τ) arg6 fullShare xw
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 x2 (rowsAt i xw) acc) ∗ owns (c : Thread nD τ) arg6 fullShare (xw)) -∗ K ⟨⟩))
      ⊢ wp frame (wpE (defs₀ (F := F)) Variants.none c none) E (cc0__gcn_block_kernel i arg2 harg2 arg3 harg3 arg4 harg4 arg5 harg5 arg6 harg6) K := by
  simp only [cc0__gcn_block_kernel_eq_skeleton]; unfold cc0__gcn_block_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    simp only [read_store_whole, readCov_whole, View.readAt_eq_ld, Memref.IsWhole.read_unread, ld_whole]
    all_goals rfl
  · iexists _; isplitr
    swap; · iexact H4
    ipureintro
    sl_unfold_run_names
    simp only [read_store_whole, readCov_whole, View.readAt_eq_ld, Memref.IsWhole.read_unread, ld_whole]
    all_goals rfl

set_option maxHeartbeats 2000000 in
/-- A step with `j = 3`: the tile product is added to the output block and the sum is clamped at zero. -/
theorem run_last (h1 : ¬isFirst i) (h2 : ¬isStart i) (h3 : isLater i) (h4 : isLast i)
    (acc : Vec F S512x128 .f32) (xw : Vec F S8192x128 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare acc ∗ owns (c : Thread nD τ) arg6 fullShare xw
        ∗ (iprop(owns (c : Thread nD τ) arg2 fullShare x0 ∗ owns (c : Thread nD τ) arg3 fullShare x1 ∗ owns (c : Thread nD τ) arg4 fullShare x2
            ∗ owns (c : Thread nD τ) arg5 fullShare (k0_pay4 (k0_pay3 x2 (rowsAt i xw) acc)) ∗ owns (c : Thread nD τ) arg6 fullShare (xw)) -∗ K ⟨⟩))
      ⊢ wp frame (wpE (defs₀ (F := F)) Variants.none c none) E (cc0__gcn_block_kernel i arg2 harg2 arg3 harg3 arg4 harg4 arg5 harg5 arg6 harg6) K := by
  simp only [cc0__gcn_block_kernel_eq_skeleton]; unfold cc0__gcn_block_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    simp only [read_store_whole, readCov_whole, View.readAt_eq_ld, Memref.IsWhole.read_unread, ld_whole]
    all_goals rfl
  · iexists _; isplitr
    swap; · iexact H4
    ipureintro
    sl_unfold_run_names
    simp only [read_store_whole, readCov_whole, View.readAt_eq_ld, Memref.IsWhole.read_unread, ld_whole]
    all_goals rfl

end Runs

end Cert.KernelIdeal.Hand

end
-- ==== Proof.IdealBody.lean ====
/-
  The body obligation of the fused graph-convolution kernel, its frame run, and the frame.

  At every grid step the pipeline hands the body its three input buffers at their blocks, the output buffer at what
  the previous step left there (or at anything, at a step that opens a block), and the scratch at the projection
  (or at anything, at the very first step); the step's control case runs, and the buffers are handed back at the
  contents the proof data name. Launching that at every step gives the run to the frame post: every argument array
  unchanged, the result array at what the write-backs of the closing steps leave.
-/
import proofs.«178523_g34007551050521_cont_8to1_b_1118_9_alg».proof.Proof.IdealRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The guards over the grid, in closed form -/

theorem first_iff : ∀ t : Fin cfg0.N, isFirst (grid0.coords t) ↔ t.val = 0 :=
  (by decide +kernel : ∀ t : Fin grid0.N, isFirst (grid0.coords t) ↔ t.val = 0)
theorem start_iff : ∀ t : Fin cfg0.N, isStart (grid0.coords t) ↔ t.val % 4 = 0 :=
  (by decide +kernel : ∀ t : Fin grid0.N, isStart (grid0.coords t) ↔ t.val % 4 = 0)
theorem later_iff : ∀ t : Fin cfg0.N, isLater (grid0.coords t) ↔ ¬t.val % 4 = 0 :=
  (by decide +kernel : ∀ t : Fin grid0.N, isLater (grid0.coords t) ↔ ¬t.val % 4 = 0)
theorem last_iff : ∀ t : Fin cfg0.N, isLast (grid0.coords t) ↔ t.val % 4 = 3 :=
  (by decide +kernel : ∀ t : Fin grid0.N, isLast (grid0.coords t) ↔ t.val % 4 = 3)

/-- Every step stores into the output buffer (it opens the block or adds to it): the window is never idle. -/
theorem out_live (i : grid0.Coords) : cfg0.idle 3 i = false := by
  have key : ∀ j : Fin 4,
      (!(Scalar.cmpi .ne (Scalar.extui (Scalar.cmpi .eq (BitVec.ofNat 32 j.val) 0#32)) 0#32 == 1#1)
        && !(Scalar.cmpi .ne (Scalar.extui (Scalar.cmpi .sgt (BitVec.ofNat 32 j.val) 0#32)) 0#32 == 1#1)
        && !(Scalar.cmpi .ne (Scalar.extui (Scalar.cmpi .eq (BitVec.ofNat 32 j.val) 3#32)) 0#32 == 1#1)) = false := by decide
  exact key (i 1)

/-! ## What the body finds in each buffer -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At a step that adds to a block the output buffer holds what the step before left: the step is not the first, the
    buffer was not written back in between (that happens after `j = 3` only), and every step stores into it. -/
theorem before3_later (c : Dev nD) (t : Fin cfg0.N) (h0 : ¬t.val % 4 = 0) (d) :
    (dats m 0 c).before 3 t d = accAt m c (t.val - 1) (Nat.lt_of_le_of_lt (Nat.sub_le _ _) t.isLt) := by
  rw [Dat.before_out_kept _ 3 rfl t (fun h => h0 (by rw [h]))
    (Bool.eq_false_iff.mpr fun h => by have := (flush0_3 _).mp h; dsimp only at this; omega)
    out_live (fun _ _ => rfl)]
  dsimp only [dats]

/-! ## The buffers as the pipeline passes them -/

abbrev ms0 (t : Fin cfg0.N) : Memref sig .tc .vmem S8192x128 .f32 := win0_0.stage (cfg0.slots t 0)
abbrev hs0 (t : Fin cfg0.N) : (ms0 t).IsWhole := Gen.hstage0_0 ((cfg0.slots t 0).cast Gen.nbuf0_0)
abbrev ms1 (t : Fin cfg0.N) : Memref sig .tc .vmem S128x128 .f32 := win0_1.stage (cfg0.slots t 1)
abbrev hs1 (t : Fin cfg0.N) : (ms1 t).IsWhole := Gen.hstage0_1 ((cfg0.slots t 1).cast Gen.nbuf0_1)
abbrev ms2 (t : Fin cfg0.N) : Memref sig .tc .vmem S512x2048 .f32 := win0_2.stage (cfg0.slots t 2)
abbrev hs2 (t : Fin cfg0.N) : (ms2 t).IsWhole := Gen.hstage0_2 ((cfg0.slots t 2).cast Gen.nbuf0_2)
abbrev ms3 (t : Fin cfg0.N) : Memref sig .tc .vmem S512x128 .f32 := win0_3.stage (cfg0.slots t 3)
abbrev hs3 (t : Fin cfg0.N) : (ms3 t).IsWhole := Gen.hstage0_3 ((cfg0.slots t 3).cast Gen.nbuf0_3)

/-- The class's invariant with the scratch as a memref owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

theorem Phi_castSucc (c : Dev nD) (t : Fin cfg0.N) :
    (dats m 0 c).Φ t.castSucc = PhiS m c t.val (Nat.le_of_lt t.isLt) := by
  dsimp only [dats]; simp only [Fin.coe_castSucc]

/-- A window that is never idle is handed back at the proof data's contents. -/
theorem leaves_live (c : Dev nD) (w : Fin cfg0.W) (t : Fin cfg0.N) (hl : cfg0.idle w (grid0.coords t) = false) :
    (dats m 0 c).leavesExact w t = owns (c : Thread nD τ) ((cfg0.win w).stage (cfg0.slots t w)) fullShare ((dats m 0 c).after w t) := by
  unfold Dat.leavesExact; rw [hl]

/-! ## The body obligation, at a generic step -/

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any step: the closed forms of the guards say which case the step is in, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [leaves_live m c 0 t rfl, leaves_live m c 1 t rfl, leaves_live m c 2 t rfl, leaves_live m c 3 t (out_live _)]
  rw [after0, after1, after2, after3, Phi_castSucc]
  have hN : t.val < 64 := lt_of_lt_of_eq t.isLt (show cfg0.N = 64 from N_0)
  by_cases h0 : t.val % 4 = 0
  · have c2 : isStart (grid0.coords t) := (start_iff t).mpr h0
    have c3 : ¬isLater (grid0.coords t) := fun h => (later_iff t).mp h h0
    have c4 : ¬isLast (grid0.coords t) := fun h => by have := (last_iff t).mp h; omega
    rw [accAt_start m c t h0]
    by_cases hz : t.val = 0
    · have c1 : isFirst (grid0.coords t) := (first_iff t).mpr hz
      obtain rfl : t = t₀ := Fin.ext hz
      rw [PhiS_zero m c _ _ rfl, PhiA_eq]
      unfold proj
      iintro ⟨⟨⟨%old, HS⟩, Hg⟩, Ho, ⟨%d0, H0⟩, ⟨%d1, H1⟩, ⟨%d2, H2⟩, ⟨%d3, H3⟩⟩
      iapply (run_first c (grid0.coords t₀) (ms0 t₀) (hs0 t₀) (ms1 t₀) (hs1 t₀) (ms2 t₀) (hs2 t₀) (ms3 t₀) (hs3 t₀) scM (Memref.isWhole_whole _)
        (featBlk m c t₀) (wBlk m c t₀) (adjBlk m c t₀) c1 c2 c3 c4 ((dats m 0 c).before 3 t₀ d3) old Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · have c1 : ¬isFirst (grid0.coords t) := fun h => hz ((first_iff t).mp h)
      rw [PhiS_pos m c _ _ hz]
      iintro ⟨⟨HS, Hg⟩, Ho, ⟨%d0, H0⟩, ⟨%d1, H1⟩, ⟨%d2, H2⟩, ⟨%d3, H3⟩⟩
      iapply (run_start c (grid0.coords t) (ms0 t) (hs0 t) (ms1 t) (hs1 t) (ms2 t) (hs2 t) (ms3 t) (hs3 t) scM (Memref.isWhole_whole _)
        (featBlk m c t) (wBlk m c t) (adjBlk m c t) c1 c2 c3 c4 ((dats m 0 c).before 3 t d3) (proj m c) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
  · have hz : t.val ≠ 0 := fun h => h0 (by rw [h])
    have c1 : ¬isFirst (grid0.coords t) := fun h => hz ((first_iff t).mp h)
    have c2 : ¬isStart (grid0.coords t) := fun h => h0 ((start_iff t).mp h)
    have c3 : isLater (grid0.coords t) := (later_iff t).mpr h0
    simp only [before3_later m c t h0]
    rw [PhiS_pos m c _ _ hz]
    by_cases h3 : t.val % 4 = 3
    · have c4 : isLast (grid0.coords t) := (last_iff t).mpr h3
      rw [accAt_last m c t h3]
      iintro ⟨⟨HS, Hg⟩, Ho, ⟨%d0, H0⟩, ⟨%d1, H1⟩, ⟨%d2, H2⟩, ⟨%d3, H3⟩⟩
      iapply (run_last c (grid0.coords t) (ms0 t) (hs0 t) (ms1 t) (hs1 t) (ms2 t) (hs2 t) (ms3 t) (hs3 t) scM (Memref.isWhole_whole _)
        (featBlk m c t) (wBlk m c t) (adjBlk m c t) c1 c2 c3 c4 (accAt m c (t.val - 1) (Nat.lt_of_le_of_lt (Nat.sub_le _ _) t.isLt)) (proj m c) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · have c4 : ¬isLast (grid0.coords t) := fun h => h3 ((last_iff t).mp h)
      rw [accAt_mid m c t h0 h3]
      iintro ⟨⟨HS, Hg⟩, Ho, ⟨%d0, H0⟩, ⟨%d1, H1⟩, ⟨%d2, H2⟩, ⟨%d3, H3⟩⟩
      iapply (run_mid c (grid0.coords t) (ms0 t) (hs0 t) (ms1 t) (hs1 t) (ms2 t) (hs2 t) (ms3 t) (hs3 t) scM (Memref.isWhole_whole _)
        (featBlk m c t) (wBlk m c t) (adjBlk m c t) c1 c2 c3 c4 (accAt m c (t.val - 1) (Nat.lt_of_le_of_lt (Nat.sub_le _ _) t.isLt)) (proj m c) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3

/-- The library's body obligation, at every step. -/
theorem body_obligation (c : Dev nD) : BodyObligation (dats (F := F) m 0 c) (defs₀ (F := F)) Variants.none () Set.univ := fun t => by
  rw [bigSep_W0, bigSep_W0]
  exact sound_body m c t

/-- What the launch hands the region is the invariant before the first step. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last step the invariant gives the class's back: the projection in the scratch is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

/-! ## The run and the frame -/

set_option backward.isDefEq.respectTransparency.types false in
/-- From any memory with zero counters every weakly fair execution of @main terminates, and in every final state each
    array of the pipeline holds what the library computes from the proof data: an argument its entry contents, the
    result those overwritten by the closing steps' blocks. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end without fault and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
/-
  The graph-convolution layer as one function of its three arguments, over the extended reals:

      out[r, q] = max (Σ_k adj[r, k] · (Σ_d feat[k, d] · weight[d, q]), 0)        (r < 8192, q < 128)

  `proj` is the projection `feat · weight`, `agg` the aggregation `adj · proj`, `layer` the clamped result.
  No program is imported here: both the kernel and the reference are shown to compute `layer`.
-/
import Idealize.ShloMosaic.PureOps.Ideal
import Idealize.ShloMosaic.Lib.ValueIdx

noncomputable section

namespace Cert.Spec

open Idealize.ShloMosaic Idealize.ShloMosaic.ValueIdx

/-- `(feat · weight)[r, q]`. -/
def proj (feat : FVec Ideal ⟨2, ![8192, 128]⟩ .f32) (w : FVec Ideal ⟨2, ![128, 128]⟩ .f32) (r : Fin 8192) (q : Fin 128) : EReal :=
  ∑ d : Fin 128, feat (ix2 r d) * w (ix2 d q)

/-- `(adj · (feat · weight))[r, q]`. -/
def agg (feat : FVec Ideal ⟨2, ![8192, 128]⟩ .f32) (adj : FVec Ideal ⟨2, ![8192, 8192]⟩ .f32) (w : FVec Ideal ⟨2, ![128, 128]⟩ .f32)
    (r : Fin 8192) (q : Fin 128) : EReal :=
  ∑ k : Fin 8192, adj (ix2 r k) * proj feat w k q

/-- The layer: the aggregation clamped at zero from below (the zero is the float literal both programs carry). -/
def layer (feat : FVec Ideal ⟨2, ![8192, 128]⟩ .f32) (adj : FVec Ideal ⟨2, ![8192, 8192]⟩ .f32) (w : FVec Ideal ⟨2, ![128, 128]⟩ .f32) :
    FVec Ideal ⟨2, ![8192, 128]⟩ .f32 :=
  fun j => max (agg feat adj w (j 0) (j 1)) (Ideal.ofBits .f32 0x00000000#32)

end Cert.Spec

end
-- ==== Proof.IdealAccValue.lean ====
/-
  The output block a closing step leaves is its 512 rows of the layer.

  Step `4 i + 3` leaves `max (((T₀ + T₁) + T₂) + T₃, 0)` in the output block, `T_j` the tile product of step
  `4 i + j`: `T_j[p, q] = Σ_{k < 2048} adj[512 i + p, 2048 j + k] · P[2048 j + k, q]` with `P = feat · weight`. Since
  `Σ_{j < 4} Σ_{k < 2048} f (2048 j + k) = Σ_{k < 8192} f k`, and at the ideal instance a change of float format
  is the identity, this is `layer feat adj weight` at row `512 i + p`. Only commutativity and associativity
  of the extended reals' addition are used, so no finiteness is needed.

  The steps, in the module's order. (1) Each of the step's four values at an index `(p, q)`: a product into the zero
  block is the sum over the contracted axis of left entry times right entry, a later step's value is the block's
  entry plus the tile product's, the closing value is the block's entry clamped at zero, and the first step's
  projection is `Σ_{d < 128} feat[r, d] · weight[d, q]`. (2) Column `2048 j + k` of the adjacency is column `k` of
  band `j`, and the pairs `(j, k)` enumerate the 8192 columns once each, so a row's sum splits into its four bands'
  sums in the bands' order. (3) Each block at an index: the adjacency tile of step `t` at `(p, k)` is the adjacency
  at `(512 (t / 4) + p, 2048 (t % 4) + k)`, the features' and the weights' blocks at the first step are the whole
  arrays, the rows of the scratch a step loads start at row `2048 (t % 4)`, and so the scratch holds the
  specification's projection. (4) The tile product of step `4 i + j` at `(p, q)` is band `j`'s share of
  `(adj · P)[512 i + p, q]`; the opening step leaves band 0's share, each middle step adds its band's share, the
  closing step adds band 3's and clamps: the four shares added in the bands' order are the aggregation, by (2).
-/
import proofs.«178523_g34007551050521_cont_8to1_b_1118_9_alg».proof.Proof.IdealData
import proofs.«178523_g34007551050521_cont_8to1_b_1118_9_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The four payloads, read at an index -/

/-- The tile product's left factor sits, on its row axis, at the output's row. -/
theorem lhs_tile_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
/-- On its column axis, at the summation index. -/
theorem lhs_tile_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
/-- The right factor sits, on its row axis, at the summation index. -/
theorem rhs_tile_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
/-- On its column axis, at the output's column. -/
theorem rhs_tile_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The tile product at `(p, q)`: row `p` of the adjacency tile against column `q` of the 2048 projection rows (the change
    of format of the tile is the identity, the accumulator is the zero block). -/
theorem tile_apply (a : FVec Ideal S512x2048 .f32) (R : FVec Ideal S2048x128 .bf16) (p : Fin 512) (q : Fin 128) :
    k0_pay2 (F := Ideal) a R (ix2 p q) = ∑ k : Fin 2048, a (ix2 p k) * R (ix2 k q) := by
  unfold k0_pay2
  refine (Ideal.matmul_constant_zero_apply (φ₁ := .bf16) (φ₂ := .bf16) dot_S512x2048_S2048x128_S512x128_1_0_0_1_n_n none _ R (ix2 p q)).trans ?_
  rw [← Equiv.sum_comp (ValueIdx.contrEquiv1 dot_S512x2048_S2048x128_S512x128_1_0_0_1_n_n 2048 rfl rfl).symm]
  refine Finset.sum_congr rfl fun k _ => ?_
  have hk := ValueIdx.contrEquiv1_symm_val dot_S512x2048_S2048x128_S512x128_1_0_0_1_n_n 2048 rfl rfl k
  have el : dot_S512x2048_S2048x128_S512x128_1_0_0_1_n_n.lhsIdx (ix2 p q) ((ValueIdx.contrEquiv1 dot_S512x2048_S2048x128_S512x128_1_0_0_1_n_n 2048 rfl rfl).symm k) = ix2 p k := funext fun a => Fin.ext (by
    match a with
    | ⟨0, _⟩ => exact lhs_tile_0 _ _
    | ⟨1, _⟩ => exact (lhs_tile_1 _ _).trans hk)
  have er : dot_S512x2048_S2048x128_S512x128_1_0_0_1_n_n.rhsIdx (ix2 p q) ((ValueIdx.contrEquiv1 dot_S512x2048_S2048x128_S512x128_1_0_0_1_n_n 2048 rfl rfl).symm k) = ix2 k q := funext fun a => Fin.ext (by
    match a with
    | ⟨0, _⟩ => exact (rhs_tile_0 _ _).trans hk
    | ⟨1, _⟩ => exact rhs_tile_1 _ _)
  rw [el, er]
  rfl

/-- A later step's block at `(p, q)`: what the block held plus the tile product (the cast to the same shape is the identity). -/
theorem add_apply (a : FVec Ideal S512x2048 .f32) (R : FVec Ideal S2048x128 .bf16) (prev : FVec Ideal S512x128 .f32)
    (p : Fin 512) (q : Fin 128) :
    k0_pay3 (F := Ideal) a R prev (ix2 p q) = prev (ix2 p q) + k0_pay2 (F := Ideal) a R (ix2 p q) := by
  unfold k0_pay3
  refine (addf_apply _ _ (ix2 p q)).trans ?_
  rw [shapeCast_self]

/-- The closing step's block at `(p, q)`: what the block held, clamped at zero from below. -/
theorem clamp_apply (v : FVec Ideal S512x128 .f32) (p : Fin 512) (q : Fin 128) :
    k0_pay4 (F := Ideal) v (ix2 p q) = max (v (ix2 p q)) (Ideal.ofBits .f32 0x00000000#32) := by
  unfold k0_pay4
  refine (maximumf_apply _ _ (ix2 p q)).trans ?_
  rw [shapeCast_self]
  rfl

/-- The projection's left factor sits, on its row axis, at the output's row. -/
theorem lhs_proj_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
/-- On its column axis, at the summation index. -/
theorem lhs_proj_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
/-- The right factor sits, on its row axis, at the summation index. -/
theorem rhs_proj_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
/-- On its column axis, at the output's column. -/
theorem rhs_proj_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The first step's projection at `(r, q)`: row `r` of the features against column `q` of the weights. -/
theorem project_apply (x : FVec Ideal S8192x128 .f32) (w : FVec Ideal S128x128 .f32) (r : Fin 8192) (q : Fin 128) :
    k0_pay1 (F := Ideal) x w (ix2 r q) = ∑ d : Fin 128, x (ix2 r d) * w (ix2 d q) := by
  unfold k0_pay1
  rw [shapeCast_self]
  refine (Ideal.matmul_constant_zero_apply (φ₁ := .f32) (φ₂ := .f32) dot_S8192x128_S128x128_S8192x128_1_0_0_1_n_n none x w (ix2 r q)).trans ?_
  rw [← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 r q) ((ValueIdx.contrEquiv1 dot_S8192x128_S128x128_S8192x128_1_0_0_1_n_n 128 rfl rfl).symm k) = ix2 r k := funext fun a => Fin.ext (by
    match a with
    | ⟨0, _⟩ => exact lhs_proj_0 _ _
    | ⟨1, _⟩ => exact (lhs_proj_1 _ _).trans hk)
  have er : dot_S8192x128_S128x128_S8192x128_1_0_0_1_n_n.rhsIdx (ix2 r q) ((ValueIdx.contrEquiv1 dot_S8192x128_S128x128_S8192x128_1_0_0_1_n_n 128 rfl rfl).symm k) = ix2 k q := funext fun a => Fin.ext (by
    match a with
    | ⟨0, _⟩ => exact (rhs_proj_0 _ _).trans hk
    | ⟨1, _⟩ => exact rhs_proj_1 _ _)
  rw [el, er]

/-! ## Four column bands make the whole row -/

/-- Column `2048 j + k` of the adjacency: column `k` of band `j`. -/
abbrev colAt (j : Fin 4) (k : Fin 2048) : Fin 8192 :=
  ⟨2048 * j.val + k.val, by have := j.isLt; have := k.isLt; omega⟩

/-- A sum over the 8192 columns is the sum over the four bands of the sums over a band's 2048 columns, the bands in
    their order. -/
theorem sum_bands {M : Type*} [AddCommMonoid M] (g : Fin 8192 → M) :
    ∑ k : Fin 8192, g k
      = (((∑ k : Fin 2048, g (colAt 0 k)) + ∑ k : Fin 2048, g (colAt 1 k)) + ∑ k : Fin 2048, g (colAt 2 k))
        + ∑ k : Fin 2048, g (colAt 3 k) := by
  have e : ∑ k : Fin 8192, g k = ∑ x : Fin 4 × Fin 2048, g (colAt x.1 x.2) :=
    (Fintype.sum_equiv (finProdFinEquiv (m := 4) (n := 2048)) (fun x => g (colAt x.1 x.2)) g
      (fun x => congrArg g (Fin.ext (by
        show 2048 * x.1.val + x.2.val = x.2.val + 2048 * x.1.val
        omega)))).symm
  rw [e, Fintype.sum_prod_type, Fin.sum_univ_four]

/-! ## The blocks, read at an index -/

variable (m : (ℓ : Loc nD τ sig) → Buf (Elt Ideal) ℓ)

/-- Where the grid's points sit: point `t` is step `(t / 4, t % 4)`; the adjacency's window is at block `(t / 4, t % 4)`,
    and the rows of the projection a step loads start at `2048 (t % 4)`. -/
theorem point_facts : ∀ t : Fin cfg0.N, win0_2.index t 0 = t.val / 4 ∧ win0_2.index t 1 = t.val % 4
    ∧ k0_off1 (grid0.coords t) 0 = 2048 * (t.val % 4) ∧ k0_off1 (grid0.coords t) 1 = 0 :=
  (by decide +kernel : ∀ t : Fin grid0.N, win0_2.index t 0 = t.val / 4 ∧ win0_2.index t 1 = t.val % 4
    ∧ k0_off1 (grid0.coords t) 0 = 2048 * (t.val % 4) ∧ k0_off1 (grid0.coords t) 1 = 0)

/-- The windows of the features and of the weights are at block `(0, 0)` at the first step. -/
theorem first_facts : win0_0.index t₀ 0 = 0 ∧ win0_0.index t₀ 1 = 0 ∧ win0_1.index t₀ 0 = 0 ∧ win0_1.index t₀ 1 = 0 := by
  decide +kernel

/-- The adjacency tile of step `t` at `(p, k)` is the adjacency at `(512 (t / 4) + p, 2048 (t % 4) + k)`. -/
theorem adjBlk_apply (c : Dev nD) (t : Fin cfg0.N) (p : Fin 512) (k : Fin 2048) (r kk : Fin 8192)
    (hr : r.val = 512 * (t.val / 4) + p.val) (hk : kk.val = 2048 * (t.val % 4) + k.val) :
    adjBlk (F := Ideal) m c t (ix2 p k) = V m c main_arg1 (ix2 r kk) := by
  have hi := point_facts t
  show (iblk m c 2 t : Vec Ideal S512x2048 .f32) (ix2 p k) = _
  unfold iblk
  rw [View.read_apply]
  show V m c main_arg1 _ = V m c main_arg1 _
  refine congrArg (V m c main_arg1) (funext fun a => Fin.ext ?_)
  match a with
  | ⟨0, _⟩ => show win0_2.index t 0 * 512 + 1 * p.val = r.val; rw [hi.1, hr]; omega
  | ⟨1, _⟩ => show win0_2.index t 1 * 2048 + 1 * k.val = kk.val; rw [hi.2.1, hk]; omega

/-- The features' block at the first step is the whole array. -/
theorem featBlk_apply (c : Dev nD) (r : Fin 8192) (d : Fin 128) :
    featBlk (F := Ideal) m c t₀ (ix2 r d) = V m c main_arg0 (ix2 r d) := by
  have hi := first_facts
  show (iblk m c 0 t₀ : Vec Ideal S8192x128 .f32) (ix2 r d) = _
  unfold iblk
  rw [View.read_apply]
  show V m c main_arg0 _ = V m c main_arg0 _
  refine congrArg (V m c main_arg0) (funext fun a => Fin.ext ?_)
  match a with
  | ⟨0, _⟩ => show win0_0.index t₀ 0 * 8192 + 1 * r.val = r.val; rw [hi.1]; omega
  | ⟨1, _⟩ => show win0_0.index t₀ 1 * 128 + 1 * d.val = d.val; rw [hi.2.1]; omega

/-- The weights' block at the first step is the whole array. -/
theorem wBlk_apply (c : Dev nD) (d : Fin 128) (q : Fin 128) :
    wBlk (F := Ideal) m c t₀ (ix2 d q) = V m c main_arg2 (ix2 d q) := by
  have hi := first_facts
  show (iblk m c 1 t₀ : Vec Ideal S128x128 .f32) (ix2 d q) = _
  unfold iblk
  rw [View.read_apply]
  show V m c main_arg2 _ = V m c main_arg2 _
  refine congrArg (V m c main_arg2) (funext fun a => Fin.ext ?_)
  match a with
  | ⟨0, _⟩ => show win0_1.index t₀ 0 * 128 + 1 * d.val = d.val; rw [hi.2.2.1]; omega
  | ⟨1, _⟩ => show win0_1.index t₀ 1 * 128 + 1 * q.val = q.val; rw [hi.2.2.2]; omega

/-- The rows of a full-height matrix that step `t` loads, at `(k, q)`: the matrix at row `2048 (t % 4) + k`. -/
theorem rowsAt_apply (t : Fin cfg0.N) (X : FVec Ideal S8192x128 .bf16) (k : Fin 2048) (q : Fin 128) (kk : Fin 8192)
    (hk : kk.val = 2048 * (t.val % 4) + k.val) :
    rowsAt (F := Ideal) (grid0.coords t) X (ix2 k q) = X (ix2 kk q) := by
  have hi := point_facts t
  show X ((Rect.unit (s := S8192x128) (k0_off1 (grid0.coords t)) S2048x128.size (Gen.k0_off1_inb (grid0.coords t))).idx (ix2 k q)) = _
  refine congrArg X (funext fun a => Fin.ext ?_)
  match a with
  | ⟨0, _⟩ => show k0_off1 (grid0.coords t) 0 + 1 * k.val = kk.val; rw [hi.2.2.1, hk]; omega
  | ⟨1, _⟩ => show k0_off1 (grid0.coords t) 1 + 1 * q.val = q.val; rw [hi.2.2.2]; omega

/-- The scratch's projection at `(r, q)` is the specification's, of the features and the weights as the region finds them. -/
theorem proj_apply (c : Dev nD) (r : Fin 8192) (q : Fin 128) :
    proj (F := Ideal) m c (ix2 r q) = Cert.Spec.proj (V m c main_arg0) (V m c main_arg2) r q := by
  unfold proj Cert.Spec.proj
  refine (project_apply (featBlk (F := Ideal) m c t₀) (wBlk (F := Ideal) m c t₀) r q).trans ?_
  exact Finset.sum_congr rfl fun d _ => congrArg₂ (· * ·) (featBlk_apply m c r d) (wBlk_apply m c d q)

/-! ## The accumulation, step by step -/

/-- Band `j`'s share of `(adj · (feat · weight))[r, q]`: the columns `2048 j … 2048 j + 2047` of the adjacency's row `r`
    against the same rows of the projection. -/
def bandSum (feat : FVec Ideal S8192x128 .f32) (adj : FVec Ideal S8192x8192 .f32) (w : FVec Ideal S128x128 .f32)
    (r : Fin 8192) (q : Fin 128) (j : Fin 4) : EReal :=
  ∑ k : Fin 2048, adj (ix2 r (colAt j k)) * Cert.Spec.proj feat w (colAt j k) q

/-- The aggregation is the four bands' shares, added in the bands' order. -/
theorem agg_bands (feat : FVec Ideal S8192x128 .f32) (adj : FVec Ideal S8192x8192 .f32) (w : FVec Ideal S128x128 .f32)
    (r : Fin 8192) (q : Fin 128) :
    Cert.Spec.agg feat adj w r q
      = ((bandSum feat adj w r q 0 + bandSum feat adj w r q 1) + bandSum feat adj w r q 2) + bandSum feat adj w r q 3 := by
  unfold Cert.Spec.agg bandSum
  exact sum_bands fun k => adj (ix2 r k) * Cert.Spec.proj feat w k q

/-- The tile product of step `s = 4 i + j` at `(p, q)` is band `j`'s share of row `512 i + p`. -/
theorem tile_at (c : Dev nD) (s : Fin cfg0.N) (p : Fin 512) (q : Fin 128) (r : Fin 8192)
    (hr : r.val = 512 * (s.val / 4) + p.val) (j : Fin 4) (hj : j.val = s.val % 4) :
    k0_pay2 (F := Ideal) (adjBlk m c s) (rowsAt (grid0.coords s) (proj m c)) (ix2 p q)
      = bandSum (V m c main_arg0) (V m c main_arg1) (V m c main_arg2) r q j := by
  refine (tile_apply (adjBlk (F := Ideal) m c s) (rowsAt (F := Ideal) (grid0.coords s) (proj m c)) p q).trans ?_
  unfold bandSum
  refine Finset.sum_congr rfl fun k _ => ?_
  have hk : (colAt j k).val = 2048 * (s.val % 4) + k.val := by
    show 2048 * j.val + k.val = _
    rw [hj]
  exact congrArg₂ (· * ·) (adjBlk_apply m c s p k r (colAt j k) hr hk)
    ((rowsAt_apply s (proj m c) k q (colAt j k) hk).trans (proj_apply m c (colAt j k) q))

/-- The accumulation depends on the step's number only. -/
theorem accAt_congr (c : Dev nD) {n n' : ℕ} (h : n = n') (hn : n < cfg0.N) (hn' : n' < cfg0.N) :
    accAt (F := Ideal) m c n hn = accAt m c n' hn' := by
  subst h; rfl

/-- After the step that opens a band of rows the block holds band 0's share. -/
theorem acc_open (c : Dev nD) (s : Fin cfg0.N) (h0 : s.val % 4 = 0) (p : Fin 512) (q : Fin 128) (r : Fin 8192)
    (hr : r.val = 512 * (s.val / 4) + p.val) :
    accAt (F := Ideal) m c s.val s.isLt (ix2 p q) = bandSum (V m c main_arg0) (V m c main_arg1) (V m c main_arg2) r q 0 := by
  rw [accAt_start m c s h0]
  exact tile_at m c s p q r hr 0 (by show (0 : ℕ) = _; exact h0.symm)

/-- A step in the middle of a band of rows adds its band's share to what the step before left. -/
theorem acc_add (c : Dev nD) (s s' : Fin cfg0.N) (h0 : ¬s.val % 4 = 0) (h3 : ¬s.val % 4 = 3) (hs' : s'.val = s.val - 1)
    (p : Fin 512) (q : Fin 128) (r : Fin 8192) (hr : r.val = 512 * (s.val / 4) + p.val) (j : Fin 4) (hj : j.val = s.val % 4)
    (X : EReal) (hX : accAt (F := Ideal) m c s'.val s'.isLt (ix2 p q) = X) :
    accAt (F := Ideal) m c s.val s.isLt (ix2 p q)
      = X + bandSum (V m c main_arg0) (V m c main_arg1) (V m c main_arg2) r q j := by
  rw [accAt_mid m c s h0 h3]
  refine (add_apply _ _ _ p q).trans ?_
  exact congrArg₂ (· + ·) ((congrFun (accAt_congr m c hs'.symm _ s'.isLt) (ix2 p q)).trans hX) (tile_at m c s p q r hr j hj)

/-- The closing step adds band 3's share and clamps at zero. -/
theorem acc_close (c : Dev nD) (s s' : Fin cfg0.N) (h3 : s.val % 4 = 3) (hs' : s'.val = s.val - 1)
    (p : Fin 512) (q : Fin 128) (r : Fin 8192) (hr : r.val = 512 * (s.val / 4) + p.val)
    (X : EReal) (hX : accAt (F := Ideal) m c s'.val s'.isLt (ix2 p q) = X) :
    accAt (F := Ideal) m c s.val s.isLt (ix2 p q)
      = max (X + bandSum (V m c main_arg0) (V m c main_arg1) (V m c main_arg2) r q 3) (Ideal.ofBits .f32 0x00000000#32) := by
  rw [accAt_last m c s h3]
  refine (clamp_apply _ p q).trans ?_
  refine congrArg (max · (Ideal.ofBits .f32 0x00000000#32)) ?_
  refine (add_apply _ _ _ p q).trans ?_
  exact congrArg₂ (· + ·) ((congrFun (accAt_congr m c hs'.symm _ s'.isLt) (ix2 p q)).trans hX)
    (tile_at m c s p q r hr 3 (by show (3 : ℕ) = _; exact h3.symm))

/-- What a closing step (`t ≡ 3 (mod 4)`, band `i = t / 4`) leaves in the output block, index by index: row
    `512 i + p` of the layer computed from the three argument arrays as the region finds them. -/
theorem acc_last_apply (m : (ℓ : Loc nD τ sig) → Buf (Elt Ideal) ℓ) (c : Dev nD) (t : Fin cfg0.N) (h3 : t.val % 4 = 3)
    (p : Fin 512) (q : Fin 128) (r : Fin 8192) (hr : r.val = 512 * (t.val / 4) + p.val) :
    accAt (F := Ideal) m c t.val t.isLt (ix2 p q)
      = Cert.Spec.layer (V m c main_arg0) (V m c main_arg1) (V m c main_arg2) (ix2 r q) := by
  have hN : cfg0.N = 64 := N_0
  have ht := t.isLt
  obtain ⟨s0, hs0⟩ : ∃ s : Fin cfg0.N, s.val = t.val - 3 := ⟨⟨t.val - 3, by omega⟩, rfl⟩
  obtain ⟨s1, hs1⟩ : ∃ s : Fin cfg0.N, s.val = t.val - 2 := ⟨⟨t.val - 2, by omega⟩, rfl⟩
  obtain ⟨s2, hs2⟩ : ∃ s : Fin cfg0.N, s.val = t.val - 1 := ⟨⟨t.val - 1, by omega⟩, rfl⟩
  have e0 := acc_open m c s0 (by omega) p q r (by omega)
  have e1 := acc_add m c s1 s0 (by omega) (by omega) (by omega) p q r (by omega) 1 (by show (1 : ℕ) = _; omega) _ e0
  have e2 := acc_add m c s2 s1 (by omega) (by omega) (by omega) p q r (by omega) 2 (by show (2 : ℕ) = _; omega) _ e1
  refine (acc_close m c t s2 h3 hs2 p q r hr _ e2).trans ?_
  show _ = max (Cert.Spec.agg (V m c main_arg0) (V m c main_arg1) (V m c main_arg2) r q) (Ideal.ofBits .f32 0x00000000#32)
  rw [agg_bands]

end Cert.KernelIdeal.Hand

end
-- ==== Proof.IdealValue.lean ====
/-
  From blocks to the array: after the region the result array holds the layer.

  The output window's block at step `t` is rows `512 (t / 4) … 512 (t / 4) + 511` of the result; it is written back
  at the steps `t ≡ 3 (mod 4)`, one per band, and the sixteen bands cover the 8192 rows.
-/
import proofs.«178523_g34007551050521_cont_8to1_b_1118_9_alg».proof.Proof.IdealAccValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The output block of step `t = 4 i + j` is band `i = t / 4` of the rows and the one band of the columns. -/
theorem band_of_step : ∀ t : Fin cfg0.N, win0_3.index t (0 : Fin 2) = t.val / 4 ∧ win0_3.index t (1 : Fin 2) = 0 :=
  (by decide +kernel : ∀ t : Fin grid0.N, win0_3.index t (0 : Fin 2) = t.val / 4 ∧ win0_3.index t (1 : Fin 2) = 0)

/-- What a closing step `t ≡ 3 (mod 4)` writes back is its band of the layer: entry `(p, q)` of the block sits at row
    `512 (t / 4) + p`, column `q` of the result, and there the accumulated block is the layer. -/
theorem written_band (m : (ℓ : Loc nD τ sig) → Buf (Elt Ideal) ℓ) (c : Dev nD) (t : Fin cfg0.N)
    (hf : (cfg0.win 3).flush t = true) :
    (dats (F := Ideal) m 0 c).flushed 3 t
      = ((cfg0.win 3).blk t).view.read (Elt Ideal)
          (Cert.Spec.layer (V m c main_arg0) (V m c main_arg1) (V m c main_arg2)) := by
  have h3 : t.val % 4 = 3 := (flush0_3 t).mp hf
  have hN : t.val < 64 := Nat.lt_of_lt_of_eq t.isLt (show cfg0.N = 64 from N_0)
  show (cfg0.win 3).cut (grid0.coords t) ((dats (F := Ideal) m 0 c).after 3 t) = _
  rw [after3]
  funext y
  obtain ⟨p, q, rfl⟩ : ∃ (p : Fin 512) (q : Fin 128), y = ix2 p q := ⟨y 0, y 1, eq_ix2 y⟩
  rw [View.read_apply]
  obtain ⟨e0, e1⟩ := band_of_step t
  -- the row of the result under entry `p` of band `t / 4`: at most `512 · 15 + 511`
  have hr : 512 * (t.val / 4) + p.val < 8192 := by have := p.isLt; omega
  have hemb : ((cfg0.win 3).blk t).view.emb (ix2 p q) = ix2 (⟨512 * (t.val / 4) + p.val, hr⟩ : Fin 8192) q := by
    funext a; apply Fin.ext
    match a with
    | ⟨0, _⟩ => show win0_3.index t (0 : Fin 2) * 512 + 1 * p.val = 512 * (t.val / 4) + p.val; rw [e0]; omega
    | ⟨1, _⟩ => show win0_3.index t (1 : Fin 2) * 128 + 1 * q.val = q.val; rw [e1]; omega
  show accAt (F := Ideal) m c t.val t.isLt (ix2 p q)
    = Cert.Spec.layer (V m c main_arg0) (V m c main_arg1) (V m c main_arg2) (((cfg0.win 3).blk t).view.emb (ix2 p q))
  rw [hemb]
  exact acc_last_apply m c t h3 p q _ rfl

/-- The sixteen bands cover the result: row `r` lies in band `r / 512`, which step `4 (r / 512) + 3` writes back
    (`r < 8192` gives `r / 512 ≤ 15`, so the step is below 64, and `512 (r / 512) ≤ r < 512 (r / 512) + 512`). -/
theorem bands_cover (i : S8192x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  have ht : 4 * ((i 0).val / 512) + 3 < cfg0.N := by rw [show cfg0.N = 64 from N_0]; omega
  obtain ⟨t, htv⟩ : ∃ t : Fin cfg0.N, t.val = 4 * ((i 0).val / 512) + 3 := ⟨⟨_, ht⟩, rfl⟩
  obtain ⟨e0, e1⟩ := band_of_step t
  refine ⟨t, (flush0_3 t).mpr (by omega), ?_⟩
  show i ∈ ((View.whole main_v0).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [e0]; omega
  | ⟨1, _⟩ =>
    show win0_3.index t (1 : Fin 2) * 128 ≤ (i 1).val ∧ (i 1).val < win0_3.index t (1 : Fin 2) * 128 + 128
    rw [e1]; omega

/-- After every write-back the result array is the layer of the three argument arrays. -/
theorem final (m : (ℓ : Loc nD τ sig) → Buf (Elt Ideal) ℓ) (c : Dev nD) :
    (dats (F := Ideal) m 0 c).arrAt 3 cfg0.N
      = Cert.Spec.layer (V m c main_arg0) (V m c main_arg1) (V m c main_arg2) := by
  exact (dats (F := Ideal) m 0 c).arrAt_eq_of_cover 3 _ (written_band m c) bands_cover

end Cert.KernelIdeal.Hand

end
-- ==== Proof.RefValue.lean ====
/-
  The reference computes the layer: its two host contractions and its clamp, read at an index, are
  `max (Σ_k adj[r, k] · Σ_d feat[k, d] · weight[d, q], 0)`.
-/
import proofs.«178523_g34007551050521_cont_8to1_b_1118_9_alg».proof.Proof.Gen.ReferenceIdeal.Read
import proofs.«178523_g34007551050521_cont_8to1_b_1118_9_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The last stage of the reference, as a function of the three arguments, is the layer. -/
theorem ref_is_layer (x0 : (⟨S8192x128, .f32⟩ : BufTy).Contents (Elt Ideal)) (x1 : (⟨S8192x8192, .f32⟩ : BufTy).Contents (Elt Ideal))
    (x2 : (⟨S128x128, .f32⟩ : BufTy).Contents (Elt Ideal)) :
    val_main_v2 (F := Ideal) x0 x1 x2 = Cert.Spec.layer x0 x1 x2 := by
  funext j
  obtain ⟨r, q, rfl⟩ : ∃ (r : Fin 8192) (q : Fin 128), j = ix2 r q := ⟨j 0, j 1, eq_ix2 j⟩
  -- the index equations: the contraction reads row `r` of the left operand and column `q` of the right
  have eL1 : ∀ k : Fin 8192, lidx_main_v1 (ix2 r q) k = ix2 r k := fun k =>
    funext fun a => Fin.ext (by match a with | ⟨0, _⟩ => rfl | ⟨1, _⟩ => rfl)
  have eR1 : ∀ k : Fin 8192, ridx_main_v1 (ix2 r q) k = ix2 k q := fun k =>
    funext fun a => Fin.ext (by match a with | ⟨0, _⟩ => rfl | ⟨1, _⟩ => rfl)
  have eL0 : ∀ (k : Fin 8192) (d : Fin 128), lidx_main_v0 (ix2 k q) d = ix2 k d := fun k d =>
    funext fun a => Fin.ext (by match a with | ⟨0, _⟩ => rfl | ⟨1, _⟩ => rfl)
  have eR0 : ∀ (k : Fin 8192) (d : Fin 128), ridx_main_v0 (ix2 k q) d = ix2 d q := fun k d =>
    funext fun a => Fin.ext (by match a with | ⟨0, _⟩ => rfl | ⟨1, _⟩ => rfl)
  -- the outer stage is the maximum of the second contraction and the zero literal, read at `(r, q)`
  rw [val_main_v2_apply, val_main_v1_apply, val_main_call0_v0_apply, val_main_call0_cst_apply,
    Ideal.maximumf_def, Ideal.ofBits_def]
  unfold Cert.Spec.layer Cert.Spec.agg
  refine congrArg (fun s => max s (Ideal.ofBits .f32 0x00000000#32)) ?_
  -- term by term over `k`: `adj[r, k]` times the first contraction read at `(k, q)`
  refine Finset.sum_congr rfl fun k _ => ?_
  rw [eL1 k, eR1 k, val_main_v0_apply]
  unfold Cert.Spec.proj
  refine congrArg (fun s => x1 (ix2 r k) * s) ?_
  -- term by term over `d`: `feat[k, d] · weight[d, q]`
  refine Finset.sum_congr rfl fun d _ => ?_
  rw [eL0 k d, eR0 k d]

end Cert.ReferenceIdeal.RefValue

end
-- ==== Proof.lean ====
/-
  The fused graph-convolution kernel against its jnp reference: `relu (adj · (feat · weight))`, feat 8192 × 128,
  adj 8192 × 8192, weight 128 × 128.

  The kernel runs a 16 × 4 grid. Step `(0, 0)` computes the projection `P = feat · weight` once and keeps it in a
  scratch buffer; step `(i, j)` multiplies adjacency tile `(i, j)` (512 × 2048) with rows `2048 j …` of `P`, opens
  output block `i` with the product at `j = 0`, adds to it at `j = 1, 2, 3`, and clamps it at zero at `j = 3`, after
  which the block is written back. The reference contracts twice on the host and clamps. Over the extended reals a
  change of float format is the identity and a sum may be regrouped freely, so both are
  `out[r, q] = max (Σ_k adj[r, k] · Σ_d feat[k, d] · weight[d, q], 0)` (`Cert.Spec.layer`); finiteness of the inputs
  is not needed.

  Frames: the two kernel programs by the body obligation proved case by case and launched at every step (the same text
  at both float instances); the reference by its run. The idealization rewrote nothing, so `preserves` is trivial.
-/
import proofs.«178523_g34007551050521_cont_8to1_b_1118_9_alg».proof.Defs
import proofs.«178523_g34007551050521_cont_8to1_b_1118_9_alg».proof.Proof.Gen.Kernel
import proofs.«178523_g34007551050521_cont_8to1_b_1118_9_alg».proof.Proof.Gen.KernelIdeal
import proofs.«178523_g34007551050521_cont_8to1_b_1118_9_alg».proof.Proof.Gen.ReferenceIdeal
import proofs.«178523_g34007551050521_cont_8to1_b_1118_9_alg».proof.Proof.Gen.Pre_finite_inputs
import proofs.«178523_g34007551050521_cont_8to1_b_1118_9_alg».proof.Proof.Gen.ReferenceIdeal.Run
import proofs.«178523_g34007551050521_cont_8to1_b_1118_9_alg».proof.Proof.Gen.ReferenceIdeal.Read
import proofs.«178523_g34007551050521_cont_8to1_b_1118_9_alg».proof.Proof.BitsBody
import proofs.«178523_g34007551050521_cont_8to1_b_1118_9_alg».proof.Proof.IdealBody
import proofs.«178523_g34007551050521_cont_8to1_b_1118_9_alg».proof.Proof.IdealValue
import proofs.«178523_g34007551050521_cont_8to1_b_1118_9_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Hand.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealized kernel ends with the layer of its arguments in the result array, the arguments unchanged: the frame
    run's post read at the four arrays — the result by the blocks-to-array step, each argument as an input the
    pipeline only reads. -/
theorem kernel_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0)
          = Cert.Spec.layer (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c =>
    ⟨((h c).1 3).trans (Cert.KernelIdeal.Hand.final m c),
      ((h c).1 0).trans (((Cert.KernelIdeal.Hand.dats m 0 c).arrAt_in 0 rfl _).trans (Cert.KernelIdeal.Hand.A_eq m c 0)),
      ((h c).1 2).trans (((Cert.KernelIdeal.Hand.dats m 0 c).arrAt_in 2 rfl _).trans (Cert.KernelIdeal.Hand.A_eq m c 2)),
      ((h c).1 1).trans (((Cert.KernelIdeal.Hand.dats m 0 c).arrAt_in 1 rfl _).trans (Cert.KernelIdeal.Hand.A_eq m c 1))⟩)
    (Cert.KernelIdeal.Hand.run_main (F := Ideal) m ρ)

/-- Both idealized programs, from memories agreeing on the arguments, end with the layer of those arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, kernel_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_is_layer, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
